-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩

abbrev nBuf : Space → Nat
  | .hbm => 109
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S256x128, .f32⟩
  | .hbm, ⟨94, _⟩ => ⟨S50000x1, .i32⟩
  | .hbm, ⟨95, _⟩ => ⟨S256x128, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S256, .f32⟩
  | .hbm, ⟨100, _⟩ => ⟨S50000x1, .i32⟩
  | .hbm, ⟨101, _⟩ => ⟨S256, .f32⟩
  | .hbm, ⟨102, _⟩ => ⟨S_, .f32⟩
  | .hbm, ⟨103, _⟩ => ⟨S256, .f32⟩
  | .hbm, ⟨104, _⟩ => ⟨S256, .f32⟩
  | .hbm, ⟨105, _⟩ => ⟨S256x1, .f32⟩
  | .hbm, ⟨106, _⟩ => ⟨S256x128, .f32⟩
  | .hbm, ⟨107, _⟩ => ⟨S256x128, .f32⟩
  | .hbm, ⟨108, _⟩ => ⟨S256x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S256x128, .f32⟩
  | .local _ .vmem, ⟨11, _⟩ => ⟨S128x16, .f32⟩
  | .local _ .vmem, ⟨12, _⟩ => ⟨S16, .f32⟩
  | .local _ .vmem, ⟨13, _⟩ => ⟨S256x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x16_S256x16_1_0_0_1_n_n_wf : DotDims.WF S256x128 S128x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x16.size a ≤ S256x16.size a
  hwx2_3 : ∀ i : grid2.Coords, EltTy.bits .f32 = 32 ∨ (Rect.block (s := S256x16) S256x16.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S256x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S256x128, .f32⟩
  | .hbm, ⟨94, _⟩ => ⟨S50000x1, .i32⟩
  | .hbm, ⟨95, _⟩ => ⟨S256x128, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S256, .f32⟩
  | .hbm, ⟨100, _⟩ => ⟨S50000x1, .i32⟩
  | .hbm, ⟨101, _⟩ => ⟨S256, .f32⟩
  | .hbm, ⟨102, _⟩ => ⟨S_, .f32⟩
  | .hbm, ⟨103, _⟩ => ⟨S256, .f32⟩
  | .hbm, ⟨104, _⟩ => ⟨S256, .f32⟩
  | .hbm, ⟨105, _⟩ => ⟨S256x1, .f32⟩
  | .hbm, ⟨106, _⟩ => ⟨S256x128, .f32⟩
  | .hbm, ⟨107, _⟩ => ⟨S256x128, .f32⟩
  | .hbm, ⟨108, _⟩ => ⟨S256x16, .f32⟩
  | .hbm, ⟨109, _⟩ => ⟨S1x16, .f32⟩
  | .hbm, ⟨110, _⟩ => ⟨S256x16, .f32⟩
  | .hbm, ⟨111, _⟩ => ⟨S256x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x16_S256x16_1_0_0_1_n_n_wf : DotDims.WF S256x128 S128x16 S256x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf

class Facts : Prop extends Facts₀ where

variable [Facts]
-- ==== Proof.LinearAt.lean ====
/-
  The three kernel bodies read at one index of their output block, at the exact extended reals.

  Each body loads a block of rows `x` and a weight matrix `w`, narrows both to bf16 (the identity on exact
  values), and multiplies them into a zero accumulator; the third also adds a bias row. So entry (p, q) of what a
  body stores is the plain sum over the 128 contracted positions k of x(p, k) · w(k, q) — plus b(q) for the third.
  The contraction index of the printed dimension record is a one-axis index of extent 128; it is traded for
  `Fin 128`, and the record's operand indices at (p, q) and k are computed once per axis: (p, k) on the left,
  (k, q) on the right.
-/
import proofs.«413309_j6571299963161_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LinearAt

open Cert.KernelIdeal Cert.KernelIdeal.Gen Idealize.ShloMosaic Idealize.ShloMosaic.TcCoe Idealize.SL.Sem

/-! ## A block of 10000 rows times the 128 × 128 weights (the two layer kernels) -/

theorem rows_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rows_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rows_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rows_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The left operand's index for output entry `i` and contracted position `k`: row of `i`, column `k`. -/
abbrev rowsRow (i : S10000x128.Idx) (k : Fin 128) : S10000x128.Idx := fun a => match a with
  | ⟨0, _⟩ => ⟨(i 0).val, (i 0).isLt⟩
  | ⟨1, _⟩ => ⟨k.val, k.isLt⟩
/-- The right operand's index: row `k`, column of `i`. -/
abbrev rowsCol (i : S10000x128.Idx) (k : Fin 128) : S128x128.Idx := fun a => match a with
  | ⟨0, _⟩ => ⟨k.val, k.isLt⟩
  | ⟨1, _⟩ => ⟨(i 1).val, (i 1).isLt⟩

/-- The product into a zero accumulator, at an entry: the sum of the 128 products along the contracted axis. -/
theorem product_apply (x : FVec Ideal S10000x128 .bf16) (w : FVec Ideal S128x128 .bf16) (j : S10000x128.Idx) :
    FloatOps.matmul dot_S10000x128_S128x128_S10000x128_1_0_0_1_n_n none x w (constant S10000x128 .f32 0x00000000#32) j
      = ∑ k : Fin 128, x (rowsRow j k) * w (rowsCol j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowsRow j k := funext fun a => Fin.ext (by
    match a with
    | ⟨0, _⟩ => exact rows_lhs_0 _ _
    | ⟨1, _⟩ => exact (rows_lhs_1 _ _).trans hk)
  have er : dot_S10000x128_S128x128_S10000x128_1_0_0_1_n_n.rhsIdx j ((ValueIdx.contrEquiv1 dot_S10000x128_S128x128_S10000x128_1_0_0_1_n_n 128 rfl rfl).symm k) = rowsCol j k := funext fun a => Fin.ext (by
    match a with
    | ⟨0, _⟩ => exact (rows_rhs_0 _ _).trans hk
    | ⟨1, _⟩ => exact rows_rhs_1 _ _)
  rw [el, er]

/-- The first layer's body: narrowing to bf16 changes no exact value, so the stored entry is that sum of the loaded
    blocks themselves. -/
theorem layer0_apply (x : Vec Ideal S10000x128 .f32) (w : Vec Ideal S128x128 .f32) (j : S10000x128.Idx) :
    k0_pay1 (F := Ideal) x w j = ∑ k : Fin 128, x (rowsRow j k) * w (rowsCol j k) := by
  unfold k0_pay1
  exact product_apply _ _ j

/-- The second layer's body: the same, after a shape cast of the row block to its own shape. -/
theorem layer1_apply (x : Vec Ideal S10000x128 .f32) (w : Vec Ideal S128x128 .f32) (j : S10000x128.Idx) :
    k1_pay1 (F := Ideal) x w j = ∑ k : Fin 128, x (rowsRow j k) * w (rowsCol j k) := by
  unfold k1_pay1
  rw [shapeCast_self]
  exact product_apply _ _ j

/-! ## The 256 pooled rows times the 128 × 16 classifier weights, plus the bias row (the head kernel) -/

theorem head_lhs_0 (i : S256x16.Idx) (q : dot_S256x128_S128x16_S256x16_1_0_0_1_n_n.contr.Idx) :
    (dot_S256x128_S128x16_S256x16_1_0_0_1_n_n.lhsIdx i q 0).val = (i 0).val := by
  unfold DotDims.lhsIdx
  rw [dif_neg (show ¬(0 : Fin S256x128.rank) ∈ dot_S256x128_S128x16_S256x16_1_0_0_1_n_n.lhsBatch by decide), dif_pos (show (0 : Fin S256x128.rank) ∈ dot_S256x128_S128x16_S256x16_1_0_0_1_n_n.lhsNonContracting by decide)]
  rfl
theorem head_lhs_1 (i : S256x16.Idx) (q : dot_S256x128_S128x16_S256x16_1_0_0_1_n_n.contr.Idx) :
    (dot_S256x128_S128x16_S256x16_1_0_0_1_n_n.lhsIdx i q 1).val = (q ⟨0, by decide⟩).val :=
  dot_S256x128_S128x16_S256x16_1_0_0_1_n_n.lhsIdx_val_of_single rfl i q
theorem head_rhs_0 (i : S256x16.Idx) (q : dot_S256x128_S128x16_S256x16_1_0_0_1_n_n.contr.Idx) :
    (dot_S256x128_S128x16_S256x16_1_0_0_1_n_n.rhsIdx i q 0).val = (q ⟨0, by decide⟩).val :=
  dot_S256x128_S128x16_S256x16_1_0_0_1_n_n.rhsIdx_val_of_single rfl i q
theorem head_rhs_1 (i : S256x16.Idx) (q : dot_S256x128_S128x16_S256x16_1_0_0_1_n_n.contr.Idx) :
    (dot_S256x128_S128x16_S256x16_1_0_0_1_n_n.rhsIdx i q 1).val = (i 1).val := by
  unfold DotDims.rhsIdx
  rw [dif_neg (show ¬(1 : Fin S128x16.rank) ∈ dot_S256x128_S128x16_S256x16_1_0_0_1_n_n.rhsBatch by decide), dif_pos (show (1 : Fin S128x16.rank) ∈ dot_S256x128_S128x16_S256x16_1_0_0_1_n_n.rhsNonContracting by decide)]
  rfl

/-- Pooled row of `i`, column `k`. -/
abbrev headRow (i : S256x16.Idx) (k : Fin 128) : S256x128.Idx := fun a => match a with
  | ⟨0, _⟩ => ⟨(i 0).val, (i 0).isLt⟩
  | ⟨1, _⟩ => ⟨k.val, k.isLt⟩
/-- Weight row `k`, class column of `i`. -/
abbrev headCol (i : S256x16.Idx) (k : Fin 128) : S128x16.Idx := fun a => match a with
  | ⟨0, _⟩ => ⟨k.val, k.isLt⟩
  | ⟨1, _⟩ => ⟨(i 1).val, (i 1).isLt⟩

theorem headProduct_apply (x : FVec Ideal S256x128 .bf16) (w : FVec Ideal S128x16 .bf16) (j : S256x16.Idx) :
    FloatOps.matmul dot_S256x128_S128x16_S256x16_1_0_0_1_n_n none x w (constant S256x16 .f32 0x00000000#32) j
      = ∑ k : Fin 128, x (headRow j k) * w (headCol j k) := by
  rw [Ideal.matmul_constant_zero_apply, ← Equiv.sum_comp (ValueIdx.contrEquiv1 dot_S256x128_S128x16_S256x16_1_0_0_1_n_n 128 rfl rfl).symm]
  refine Finset.sum_congr rfl fun k _ => ?_
  have hk := ValueIdx.contrEquiv1_symm_val dot_S256x128_S128x16_S256x16_1_0_0_1_n_n 128 rfl rfl k
  have el : dot_S256x128_S128x16_S256x16_1_0_0_1_n_n.lhsIdx j ((ValueIdx.contrEquiv1 dot_S256x128_S128x16_S256x16_1_0_0_1_n_n 128 rfl rfl).symm k) = headRow j k := funext fun a => Fin.ext (by
    match a with
    | ⟨0, _⟩ => exact head_lhs_0 _ _
    | ⟨1, _⟩ => exact (head_lhs_1 _ _).trans hk)
  have er : dot_S256x128_S128x16_S256x16_1_0_0_1_n_n.rhsIdx j ((ValueIdx.contrEquiv1 dot_S256x128_S128x16_S256x16_1_0_0_1_n_n 128 rfl rfl).symm k) = headCol j k := funext fun a => Fin.ext (by
    match a with
    | ⟨0, _⟩ => exact (head_rhs_0 _ _).trans hk
    | ⟨1, _⟩ => exact head_rhs_1 _ _)
  rw [el, er]

/-- The bias vector's index under output entry `i`: the class column of `i`. -/
abbrev biasAt (i : S256x16.Idx) : S16.Idx := fun a => match a with
  | ⟨0, _⟩ => ⟨(i 1).val, (i 1).isLt⟩

/-- The one-row form of the bias under output entry `j`: row 0, the column of `j`. -/
abbrev biasRowAt (j : S256x16.Idx) : S1x16.Idx := fun a => match a with
  | ⟨0, _⟩ => ⟨0, Nat.one_pos⟩
  | ⟨1, _⟩ => ⟨(j 1).val, (j 1).isLt⟩

/-- The bias, cast to one row and broadcast down the 256 rows, read at an entry: the bias at the entry's column
    (for any float values). -/
theorem biasRows_apply {F : FTy → Type} [FloatOps F] (b : Vec F S16 .f32) (j : S256x16.Idx) :
    broadcastTo S256x16 (shapeCast S1x16 b shapeCasts_S16_S1x16) broadcasts_S1x16_S256x16 j = b (biasAt j) := by
  rw [broadcastTo_apply _ broadcasts_S1x16_S256x16 j (biasRowAt j) (fun a => by
        match a with
        | ⟨0, _⟩ => rfl
        | ⟨1, _⟩ => rfl)]
  exact shapeCast_apply b shapeCasts_S16_S1x16 (biasRowAt j) (biasAt j) (by
    rw [Shape.rowMajor_val_two, Shape.rowMajor_val_one]
    show ((j 1).val : ℕ) = 0 * 16 + (j 1).val
    omega)

/-- The head's body at an entry: the sum of the 128 products plus the bias at the entry's column. -/
theorem head_apply (x : Vec Ideal S256x128 .f32) (w : Vec Ideal S128x16 .f32) (b : Vec Ideal S16 .f32) (j : S256x16.Idx) :
    k2_pay1 (F := Ideal) x w b j = (∑ k : Fin 128, x (headRow j k) * w (headCol j k)) + b (biasAt j) := by
  unfold k2_pay1
  rw [shapeCast_self]
  exact congrArg₂ (fun a c : EReal => a + c) (headProduct_apply _ _ j) (biasRows_apply (F := Ideal) b j)

end Cert.KernelIdeal.LinearAt

end
-- ==== Proof.RegionValue.lean ====
/-
  What each kernel region leaves in its output array, as one function of the arrays the region finds.

  A layer region walks five blocks of 10000 node rows. At block t it loads rows 10000·t … 10000·t + 9999 of the
  node features and the whole 128 × 128 weight matrix, and stores the block's product. Entry (p, q) of that product
  is Σₖ x(10000·t + p, k) · w(k, q): the entry at row 10000·t + p of ONE whole-array function,
  `nodesTimes x w (r, q) = Σₖ x(r, k) · w(k, q)`. The five blocks tile the 50000 rows (row r lies in block
  r / 10000), so after the region the output array is `nodesTimes` of the two input arrays. The head region has a
  single point whose blocks are the whole arrays: its output is `pooledTimes p w b (g, q) = Σₖ p(g, k) · w(k, q) + b(q)`.
-/
import proofs.«413309_j6571299963161_3_alg».proof.Proof.Gen.KernelIdeal.Frame
import proofs.«413309_j6571299963161_3_alg».proof.Proof.LinearAt

set_option maxRecDepth 16384

noncomputable section

namespace Cert.KernelIdeal.RegionValue

open Cert.KernelIdeal Cert.KernelIdeal.Gen Cert.KernelIdeal.LinearAt
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-! ## The whole-array function of a layer -/

/-- Node row of `i`, feature column `k`. -/
abbrev nodeRow (i : S50000x128.Idx) (k : Fin 128) : S50000x128.Idx := fun a => match a with
  | ⟨0, _⟩ => ⟨(i 0).val, (i 0).isLt⟩
  | ⟨1, _⟩ => ⟨k.val, k.isLt⟩
/-- Weight row `k`, output column of `i`. -/
abbrev nodeCol (i : S50000x128.Idx) (k : Fin 128) : S128x128.Idx := fun a => match a with
  | ⟨0, _⟩ => ⟨k.val, k.isLt⟩
  | ⟨1, _⟩ => ⟨(i 1).val, (i 1).isLt⟩

/-- The dense linear map of a layer on all 50000 nodes: entry (r, q) is Σₖ x(r, k) · w(k, q). -/
def nodesTimes (x : Vec Ideal S50000x128 .f32) (w : Vec Ideal S128x128 .f32) : Vec Ideal S50000x128 .f32 :=
  fun i => ∑ k : Fin 128, x (nodeRow i k) * w (nodeCol i k)

/-- A block's stored entry is the whole-array function's entry, once each loaded element is known to be the
    array's element at the matching position. -/
theorem layer0_entry (x : Vec Ideal S50000x128 .f32) (w : Vec Ideal S128x128 .f32)
    (xb : Vec Ideal S10000x128 .f32) (wb : Vec Ideal S128x128 .f32) (j : S10000x128.Idx) (i : S50000x128.Idx)
    (hx : ∀ k : Fin 128, xb (rowsRow j k) = x (nodeRow i k)) (hw : ∀ k : Fin 128, wb (rowsCol j k) = w (nodeCol i k)) :
    k0_pay1 (F := Ideal) xb wb j = nodesTimes x w i := by
  rw [layer0_apply]
  exact Finset.sum_congr rfl fun k _ => by rw [hx k, hw k]

/-! ## Region 0: the first layer -/

/-- The printed index maps over the five points: the row block of the input moves with the output's, every other
    block index is 0. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some point's. -/
theorem onto0 : ∀ q : Fin 5, ∃ t : Fin cfg0.N, win0_2.index t = ![q.val, 0] :=
  (by decide +kernel : ∀ q : Fin 5, ∃ t : Fin grid0.N, win0_2.index t = ![q.val, 0])

/-- What point `t` writes back is block `t` of `nodesTimes` of the region's two input arrays. -/
theorem flushed0 (c : Dev nD) (t : Fin cfg0.N) :
    (dat0 V c).flushed 2 t = ((cfg0.win 2).blk t).view.read (Elt Ideal) (nodesTimes (V c main_arg0) (V c main_arg3)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := idx0 t
  funext j
  refine layer0_entry (V c main_arg0) (V c main_arg3) (iblk0 V c 0 t) (iblk0 V c 1 t) j (((cfg0.win 2).blk t).view.emb j) (fun k => ?_) (fun k => ?_)
  · show V c main_arg0 (((cfg0.win 0).blk t).view.emb (rowsRow j k)) = V c main_arg0 (nodeRow (((cfg0.win 2).blk t).view.emb j) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (rowsCol j k)) = V c main_arg3 (nodeCol (((cfg0.win 2).blk t).view.emb j) k)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r of the output lies in the block of point r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After region 0 its output array is the first layer's linear map of the two arrays the region found. -/
theorem layer0_array (c : Dev nD) :
    (dat0 V c).arrAt 2 cfg0.N = nodesTimes (V c main_arg0) (V c main_arg3) :=
  (dat0 V c).arrAt_eq_of_cover 2 (nodesTimes (V c main_arg0) (V c main_arg3)) (fun t _ => flushed0 V c t) (fun i => cover0 i)

/-! ## Region 1: the second layer -/

/-- The second layer's stored entry: the same whole-array function, of the arrays that region reads. -/
theorem layer1_entry (x : Vec Ideal S50000x128 .f32) (w : Vec Ideal S128x128 .f32)
    (xb : Vec Ideal S10000x128 .f32) (wb : Vec Ideal S128x128 .f32) (j : S10000x128.Idx) (i : S50000x128.Idx)
    (hx : ∀ k : Fin 128, xb (rowsRow j k) = x (nodeRow i k)) (hw : ∀ k : Fin 128, wb (rowsCol j k) = w (nodeCol i k)) :
    k1_pay1 (F := Ideal) xb wb j = nodesTimes x w i := by
  rw [layer1_apply]
  exact Finset.sum_congr rfl fun k _ => by rw [hx k, hw k]

theorem idx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

theorem onto1 : ∀ q : Fin 5, ∃ t : Fin cfg1.N, win1_2.index t = ![q.val, 0] :=
  (by decide +kernel : ∀ q : Fin 5, ∃ t : Fin grid1.N, win1_2.index t = ![q.val, 0])

/-- What point `t` of region 1 writes back is block `t` of `nodesTimes` of the hidden features and the second
    weight matrix as the region finds them. -/
theorem flushed1 (c : Dev nD) (t : Fin cfg1.N) :
    (dat1 V c).flushed 2 t = ((cfg1.win 2).blk t).view.read (Elt Ideal) (nodesTimes (V c main_v47) (V c main_arg5)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S128x128) origin2]
  obtain ⟨e0, e1, e2, e3, e4, e5⟩ := idx1 t
  funext j
  refine layer1_entry (V c main_v47) (V c main_arg5) (iblk1 V c 0 t) (iblk1 V c 1 t) j (((cfg1.win 2).blk t).view.emb j) (fun k => ?_) (fun k => ?_)
  · show V c main_v47 (((cfg1.win 0).blk t).view.emb (rowsRow j k)) = V c main_v47 (nodeRow (((cfg1.win 2).blk t).view.emb j) k)
    refine congrArg (V c main_v47) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg5 (((cfg1.win 1).blk t).view.emb (rowsCol j k)) = V c main_arg5 (nodeCol (((cfg1.win 2).blk t).view.emb j) k)
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v48).slice (win1_2.rect t)).set ↔ _
  rw [View.set_slice_whole, Rect.mem_set_unit]
  exact Iff.rfl

theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After region 1 its output array is the second layer's linear map of the two arrays the region found. -/
theorem layer1_array (c : Dev nD) :
    (dat1 V c).arrAt 2 cfg1.N = nodesTimes (V c main_v47) (V c main_arg5) :=
  (dat1 V c).arrAt_eq_of_cover 2 (nodesTimes (V c main_v47) (V c main_arg5)) (fun t _ => flushed1 V c t) (fun i => cover1 i)

/-! ## Region 2: the classifier head -/

theorem origin1 : (![0] : Fin 1 → Nat) = fun _ => 0 := funext fun a => by fin_cases a; rfl

/-- The head on all 256 pooled rows: entry (g, q) is Σₖ p(g, k) · w(k, q) + b(q). -/
def pooledTimes (p : Vec Ideal S256x128 .f32) (w : Vec Ideal S128x16 .f32) (b : Vec Ideal S16 .f32) : Vec Ideal S256x16 .f32 :=
  fun i => (∑ k : Fin 128, p (headRow i k) * w (headCol i k)) + b (biasAt i)

theorem head_entry (p : Vec Ideal S256x128 .f32) (w : Vec Ideal S128x16 .f32) (b : Vec Ideal S16 .f32)
    (pb : Vec Ideal S256x128 .f32) (wb : Vec Ideal S128x16 .f32) (bb : Vec Ideal S16 .f32) (j i : S256x16.Idx)
    (hp : ∀ k : Fin 128, pb (headRow j k) = p (headRow i k)) (hw : ∀ k : Fin 128, wb (headCol j k) = w (headCol i k))
    (hb : bb (biasAt j) = b (biasAt i)) :
    k2_pay1 (F := Ideal) pb wb bb j = pooledTimes p w b i := by
  rw [head_apply, hb]
  exact congrArg (· + b (biasAt i)) (Finset.sum_congr rfl fun k _ => by rw [hp k, hw k])

/-- The head's one point: every block index is 0 (each block is its whole array). -/
theorem idx2 : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0 :=
  (by decide +kernel : ∀ t : Fin grid2.N, _)

/-- What the head's point writes back is `pooledTimes` of the region's three input arrays, read through the
    (whole-array) block. -/
theorem flushed2 (c : Dev nD) (t : Fin cfg2.N) :
    (dat2 V c).flushed 3 t = ((cfg2.win 3).blk t).view.read (Elt Ideal) (pooledTimes (V c main_v76) (V c main_arg7) (V c main_arg8)) := by
  show (cfg2.win 3).cut (grid2.coords t) ((dat2 V c).after 3 t) = _
  rw [after2_3]
  unfold out2_3
  rw [View.canon_unit_zero origin2]
  simp only [View.ld_unit_zero (S := S256x128) origin2, View.ld_unit_zero (S := S128x16) origin2, View.ld_unit_zero (S := S16) origin1]
  obtain ⟨e0, e1, e2, e3, e4, e5, e6⟩ := idx2 t
  funext j
  refine head_entry (V c main_v76) (V c main_arg7) (V c main_arg8) (iblk2 V c 0 t) (iblk2 V c 1 t) (iblk2 V c 2 t) j (((cfg2.win 3).blk t).view.emb j) (fun k => ?_) (fun k => ?_) ?_
  · show V c main_v76 (((cfg2.win 0).blk t).view.emb (headRow j k)) = V c main_v76 (headRow (((cfg2.win 3).blk t).view.emb j) k)
    refine congrArg (V c main_v76) (funext fun a => Fin.ext ?_)
    match a with
    | ⟨0, _⟩ => show win2_0.index t (0 : Fin 2) * 256 + 1 * (j 0).val = win2_3.index t (0 : Fin 2) * 256 + 1 * (j 0).val; omega
    | ⟨1, _⟩ => show win2_0.index t (1 : Fin 2) * 128 + 1 * k.val = k.val; omega
  · show V c main_arg7 (((cfg2.win 1).blk t).view.emb (headCol j k)) = V c main_arg7 (headCol (((cfg2.win 3).blk t).view.emb j) k)
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 16 + 1 * (j 1).val = win2_3.index t (1 : Fin 2) * 16 + 1 * (j 1).val; omega
  · show V c main_arg8 (((cfg2.win 2).blk t).view.emb (biasAt j)) = V c main_arg8 (biasAt (((cfg2.win 3).blk t).view.emb j))
    refine congrArg (V c main_arg8) (funext fun a => Fin.ext ?_)
    match a with
    | ⟨0, _⟩ => show win2_2.index t (0 : Fin 1) * 16 + 1 * (j 1).val = win2_3.index t (1 : Fin 2) * 16 + 1 * (j 1).val; omega

theorem mem_blk2 (t : Fin cfg2.N) (i : S256x16.Idx) :
    i ∈ ((cfg2.win 3).blk t).view.set ↔ ∀ a : Fin 2, win2_3.index t a * S256x16.size a ≤ (i a).val ∧ (i a).val < win2_3.index t a * S256x16.size a + S256x16.size a := by
  show i ∈ ((View.whole main_v77).slice (win2_3.rect t)).set ↔ _
  rw [View.set_slice_whole, Rect.mem_set_unit]
  exact Iff.rfl

/-- The one block covers the whole result. -/
theorem cover2 (i : S256x16.Idx) : ∃ t : Fin cfg2.N, (cfg2.win 3).flush t = true ∧ i ∈ ((cfg2.win 3).blk t).view.set := by
  have hi0 : (i 0).val < 256 := (i 0).isLt
  have hi1 : (i 1).val < 16 := (i 1).isLt
  obtain ⟨e0, e1, e2, e3, e4, e5, e6⟩ := idx2 t2_0
  refine ⟨t2_0, flush2_3 t2_0, ?_⟩
  rw [mem_blk2]
  intro a
  match a with
  | ⟨0, _⟩ => show win2_3.index t2_0 (0 : Fin 2) * 256 ≤ (i 0).val ∧ (i 0).val < win2_3.index t2_0 (0 : Fin 2) * 256 + 256; omega
  | ⟨1, _⟩ => show win2_3.index t2_0 (1 : Fin 2) * 16 ≤ (i 1).val ∧ (i 1).val < win2_3.index t2_0 (1 : Fin 2) * 16 + 16; omega

/-- After region 2 the result array is the head's map of the three arrays the region found. -/
theorem head_array (c : Dev nD) :
    (dat2 V c).arrAt 3 cfg2.N = pooledTimes (V c main_v76) (V c main_arg7) (V c main_arg8) :=
  (dat2 V c).arrAt_eq_of_cover 3 (pooledTimes (V c main_v76) (V c main_arg7) (V c main_arg8)) (fun t _ => flushed2 V c t) (fun i => cover2 i)

end Cert.KernelIdeal.RegionValue

end
-- ==== Proof.HostChain.lean ====
/-
  The arrays the three kernel regions find, as functions of the launch arguments.

  Around its three dense products the program runs the graph part of the network on the host: from the edge list it
  builds the source and destination lists with one self loop per node and the symmetric normalisation
  dinv[src] · dinv[dst]; after each product it gathers the rows at the sources, scales them, scatter-adds them at the
  destinations and adds the layer's bias (a rectifier after the first layer); before the head it mean-pools the node
  rows per graph. The reference runs the very same host operations, with a host product where the kernel launches a
  region. So the contents of every buffer a region reads are the reference's own stage functions of the arguments,
  provided the region before it left the reference's product in its output array — which is the one thing this
  module takes as a hypothesis (twice), and the region modules prove.

  Each lemma reads one buffer at one segment boundary: unfold the host stretches since the previous boundary, take
  each operation's result at its own buffer and anything else unchanged, and compare the composed term with the
  stage function.
-/
import proofs.«413309_j6571299963161_3_alg».proof.Proof.Gen.KernelIdeal.Frame
import proofs.«413309_j6571299963161_3_alg».proof.Proof.RefRead

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v29 val_main_v30 val_main_v47 val_main_v48 val_main_v76)

variable {F : FTy → Type} [FloatOps F]
variable (m : (ℓ : Loc nD τ sig) → Buf (Elt F) ℓ) (ρ : Dev nD → PrngReg)

/-! ## At the first region's entry: everything is still a function of the arguments alone -/

/-- The source list (edge sources, then one self loop per node). -/
theorem entry0_src (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

/-- The destination list (edge destinations, then one self loop per node). -/
theorem entry0_dst (c : Dev nD) :
    W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

/-- The per-edge normalisation dinv[src] · dinv[dst]. -/
theorem entry0_norm (c : Dev nD) :
    W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results_simp
  rfl

/-- No host operation writes an argument: at the first region's entry each argument array is as launched. -/
theorem entry0_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem entry0_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp
theorem entry0_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem entry0_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp
theorem entry0_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results_simp
theorem entry0_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0, hostOps0_1, hostOps0_2]
  after_results_simp
theorem entry0_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0, hostOps0_1, hostOps0_2]
  after_results_simp

/-! ## At the second region's entry

Region 0 rewrites only its own three arrays; the stretch after it writes neither the graph lists nor an argument. -/

theorem entry1_src (c : Dev nD) :
    W6 m ρ c (Proc.devRef .tc main_v3) = val_main_v3 (F := F) (m ((c : Thread nD τ).loc main_arg1)) := by
  show StableHlo.after hostOps1_1 (StableHlo.after hostOps1 (W4 m ρ c)) (Proc.devRef .tc main_v3) = _
  simp only [hostOps1, hostOps1_1]
  after_results_simp
  rw [W4_of_ne m ρ c main_v3 (by decide)]
  exact entry0_src m ρ c
theorem entry1_dst (c : Dev nD) :
    W6 m ρ c (Proc.devRef .tc main_v6) = val_main_v6 (F := F) (m ((c : Thread nD τ).loc main_arg1)) := by
  show StableHlo.after hostOps1_1 (StableHlo.after hostOps1 (W4 m ρ c)) (Proc.devRef .tc main_v6) = _
  simp only [hostOps1, hostOps1_1]
  after_results_simp
  rw [W4_of_ne m ρ c main_v6 (by decide)]
  exact entry0_dst m ρ c
theorem entry1_norm (c : Dev nD) :
    W6 m ρ c (Proc.devRef .tc main_v29) = val_main_v29 (F := F) (m ((c : Thread nD τ).loc main_arg1)) := by
  show StableHlo.after hostOps1_1 (StableHlo.after hostOps1 (W4 m ρ c)) (Proc.devRef .tc main_v29) = _
  simp only [hostOps1, hostOps1_1]
  after_results_simp
  rw [W4_of_ne m ρ c main_v29 (by decide)]
  exact entry0_norm m ρ c
theorem entry1_arg2 (c : Dev nD) : W6 m ρ c (Proc.devRef .tc main_arg2) = m ((c : Thread nD τ).loc main_arg2) := by
  show StableHlo.after hostOps1_1 (StableHlo.after hostOps1 (W4 m ρ c)) (Proc.devRef .tc main_arg2) = _
  simp only [hostOps1, hostOps1_1]
  after_results_simp
  rw [W4_of_ne m ρ c main_arg2 (by decide)]
  exact entry0_arg2 m ρ c
theorem entry1_arg5 (c : Dev nD) : W6 m ρ c (Proc.devRef .tc main_arg5) = m ((c : Thread nD τ).loc main_arg5) := by
  show StableHlo.after hostOps1_1 (StableHlo.after hostOps1 (W4 m ρ c)) (Proc.devRef .tc main_arg5) = _
  simp only [hostOps1, hostOps1_1]
  after_results_simp
  rw [W4_of_ne m ρ c main_arg5 (by decide)]
  exact entry0_arg5 m ρ c
theorem entry1_arg6 (c : Dev nD) : W6 m ρ c (Proc.devRef .tc main_arg6) = m ((c : Thread nD τ).loc main_arg6) := by
  show StableHlo.after hostOps1_1 (StableHlo.after hostOps1 (W4 m ρ c)) (Proc.devRef .tc main_arg6) = _
  simp only [hostOps1, hostOps1_1]
  after_results_simp
  rw [W4_of_ne m ρ c main_arg6 (by decide)]
  exact entry0_arg6 m ρ c
theorem entry1_arg7 (c : Dev nD) : W6 m ρ c (Proc.devRef .tc main_arg7) = m ((c : Thread nD τ).loc main_arg7) := by
  show StableHlo.after hostOps1_1 (StableHlo.after hostOps1 (W4 m ρ c)) (Proc.devRef .tc main_arg7) = _
  simp only [hostOps1, hostOps1_1]
  after_results_simp
  rw [W4_of_ne m ρ c main_arg7 (by decide)]
  exact entry0_arg7 m ρ c
theorem entry1_arg8 (c : Dev nD) : W6 m ρ c (Proc.devRef .tc main_arg8) = m ((c : Thread nD τ).loc main_arg8) := by
  show StableHlo.after hostOps1_1 (StableHlo.after hostOps1 (W4 m ρ c)) (Proc.devRef .tc main_arg8) = _
  simp only [hostOps1, hostOps1_1]
  after_results_simp
  rw [W4_of_ne m ρ c main_arg8 (by decide)]
  exact entry0_arg8 m ρ c

/-- The hidden features the second layer reads: gather the first product's rows at the sources, scale by the
    normalisation, scatter-add at the destinations, add the first bias, rectify — the reference's stage, once the
    first region has left the reference's product. -/
theorem entry1_hidden (c : Dev nD)
    (h30 : W4 m ρ c (Proc.devRef .tc main_v30)
      = val_main_v30 (F := F) (m ((c : Thread nD τ).loc main_arg0)) (m ((c : Thread nD τ).loc main_arg3))) :
    W6 m ρ c (Proc.devRef .tc main_v47)
      = val_main_v47 (F := F) (m ((c : Thread nD τ).loc main_arg0)) (m ((c : Thread nD τ).loc main_arg1))
          (m ((c : Thread nD τ).loc main_arg3)) (m ((c : Thread nD τ).loc main_arg4)) := by
  show StableHlo.after hostOps1_1 (StableHlo.after hostOps1 (W4 m ρ c)) (Proc.devRef .tc main_v47) = _
  simp only [hostOps1, hostOps1_1]
  after_results_simp
  rw [h30, W4_of_ne m ρ c main_v3 (by decide), W4_of_ne m ρ c main_v6 (by decide), W4_of_ne m ρ c main_v29 (by decide),
    W4_of_ne m ρ c main_arg4 (by decide), entry0_src m ρ c, entry0_dst m ρ c, entry0_norm m ρ c, entry0_arg4 m ρ c]
  rfl

/-! ## At the head region's entry -/

theorem entry2_arg7 (c : Dev nD) : W8 m ρ c (Proc.devRef .tc main_arg7) = m ((c : Thread nD τ).loc main_arg7) := by
  show StableHlo.after hostOps2 (W7 m ρ c) (Proc.devRef .tc main_arg7) = _
  simp only [hostOps2]
  after_results_simp
  rw [W7_of_ne m ρ c main_arg7 (by decide)]
  exact entry1_arg7 m ρ c
theorem entry2_arg8 (c : Dev nD) : W8 m ρ c (Proc.devRef .tc main_arg8) = m ((c : Thread nD τ).loc main_arg8) := by
  show StableHlo.after hostOps2 (W7 m ρ c) (Proc.devRef .tc main_arg8) = _
  simp only [hostOps2]
  after_results_simp
  rw [W7_of_ne m ρ c main_arg8 (by decide)]
  exact entry1_arg8 m ρ c

/-- The pooled rows the head reads: the second layer's aggregation with its bias, summed per graph and divided by the
    graph's node count (at least one) — the reference's stage, once the second region has left the reference's
    product. -/
theorem entry2_pooled (c : Dev nD)
    (h48 : W7 m ρ c (Proc.devRef .tc main_v48)
      = val_main_v48 (F := F) (m ((c : Thread nD τ).loc main_arg0)) (m ((c : Thread nD τ).loc main_arg1))
          (m ((c : Thread nD τ).loc main_arg3)) (m ((c : Thread nD τ).loc main_arg4)) (m ((c : Thread nD τ).loc main_arg5))) :
    W8 m ρ c (Proc.devRef .tc main_v76)
      = val_main_v76 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  show StableHlo.after hostOps2 (W7 m ρ c) (Proc.devRef .tc main_v76) = _
  simp only [hostOps2]
  after_results_simp
  rw [h48, W7_of_ne m ρ c main_v3 (by decide), W7_of_ne m ρ c main_v6 (by decide), W7_of_ne m ρ c main_v29 (by decide),
    W7_of_ne m ρ c main_arg6 (by decide), W7_of_ne m ρ c main_arg2 (by decide),
    entry1_src m ρ c, entry1_dst m ρ c, entry1_norm m ρ c, entry1_arg6 m ρ c, entry1_arg2 m ρ c]
  rfl

end Cert.KernelIdeal.HostChain

end
-- ==== Proof.KernelValue.lean ====
/-
  The kernel program's result, at the exact extended reals, is the reference's result function of the arguments.

  Three facts about the reference's stages join the two programs. Its host product of two matrices, read at an entry,
  is the plain sum over the contracted axis — the whole-array function a layer region leaves (`nodesTimes`) —, and
  its last three operations (the product with the classifier weights, the bias broadcast down the rows, the sum) are
  the head region's function (`pooledTimes`). Then the chain is walked once: the first region leaves the
  reference's first product; so the hidden features are the reference's; so the second region leaves the reference's
  second product; so the pooled rows are the reference's; so the head region leaves the reference's result.
-/
import proofs.«413309_j6571299963161_3_alg».proof.Proof.RegionValue
import proofs.«413309_j6571299963161_3_alg».proof.Proof.HostChain

set_option maxRecDepth 16384

noncomputable section

namespace Cert.KernelIdeal.KernelValue

open Cert.KernelIdeal Cert.KernelIdeal.Gen Cert.KernelIdeal.LinearAt Cert.KernelIdeal.RegionValue Cert.KernelIdeal.HostChain
open Idealize.ShloMosaic Idealize.ShloMosaic.TcCoe Idealize.SL.Sem
open Cert.ReferenceIdeal.Read (val_main_v30 val_main_v47 val_main_v48 val_main_v76 val_main_v77 val_main_v78 val_main_v79 val_main_v80
  val_main_v30_apply val_main_v48_apply val_main_v77_apply val_main_v78_apply val_main_v79_apply val_main_v80_apply
  lidx_main_v30 ridx_main_v30 lidx_main_v48 ridx_main_v48 lidx_main_v77 ridx_main_v77 idx_main_v78 idx_main_v79)

/-! ## The reference's products and its last three operations, as the regions' functions -/

/-- The reference's first product is the layer function of the features and the first weights. -/
theorem refLayer0 (x0 : Vec Ideal S50000x128 .f32) (x3 : Vec Ideal S128x128 .f32) :
    val_main_v30 (F := Ideal) x0 x3 = nodesTimes x0 x3 := by
  funext i
  rw [val_main_v30_apply]
  refine Finset.sum_congr rfl fun k _ => ?_
  have el : lidx_main_v30 i k = nodeRow i k := funext fun a => Fin.ext (by
    match a with
    | ⟨0, _⟩ => rfl
    | ⟨1, _⟩ => rfl)
  have er : ridx_main_v30 i k = nodeCol i k := funext fun a => Fin.ext (by
    match a with
    | ⟨0, _⟩ => rfl
    | ⟨1, _⟩ => rfl)
  rw [el, er]

/-- The reference's second product is the layer function of its hidden features and the second weights. -/
theorem refLayer1 (x0 : Vec Ideal S50000x128 .f32) (x1 : IVec S2x800000 32) (x3 : Vec Ideal S128x128 .f32)
    (x4 : Vec Ideal S128 .f32) (x5 : Vec Ideal S128x128 .f32) :
    val_main_v48 (F := Ideal) x0 x1 x3 x4 x5 = nodesTimes (val_main_v47 (F := Ideal) x0 x1 x3 x4) x5 := by
  funext i
  rw [val_main_v48_apply]
  refine Finset.sum_congr rfl fun k _ => ?_
  have el : lidx_main_v48 i k = nodeRow i k := funext fun a => Fin.ext (by
    match a with
    | ⟨0, _⟩ => rfl
    | ⟨1, _⟩ => rfl)
  have er : ridx_main_v48 i k = nodeCol i k := funext fun a => Fin.ext (by
    match a with
    | ⟨0, _⟩ => rfl
    | ⟨1, _⟩ => rfl)
  rw [el, er]

/-- The reference's result is the head function of its pooled rows, the classifier weights and the bias. -/
theorem refHead (x0 : Vec Ideal S50000x128 .f32) (x1 : IVec S2x800000 32) (x2 : IVec S50000 32) (x3 : Vec Ideal S128x128 .f32)
    (x4 : Vec Ideal S128 .f32) (x5 : Vec Ideal S128x128 .f32) (x6 : Vec Ideal S128 .f32) (x7 : Vec Ideal S128x16 .f32)
    (x8 : Vec Ideal S16 .f32) :
    val_main_v80 (F := Ideal) x0 x1 x2 x3 x4 x5 x6 x7 x8 = pooledTimes (val_main_v76 (F := Ideal) x0 x1 x2 x3 x4 x5 x6) x7 x8 := by
  funext i
  rw [val_main_v80_apply, val_main_v77_apply, val_main_v79_apply, val_main_v78_apply, Ideal.addf_def]
  have eb : idx_main_v78 (idx_main_v79 i) = biasAt i := funext fun a => Fin.ext (by
    match a with
    | ⟨0, _⟩ => rfl)
  rw [eb]
  refine congrArg (· + x8 (biasAt i)) (Finset.sum_congr rfl fun k _ => ?_)
  have el : lidx_main_v77 i k = headRow i k := funext fun a => Fin.ext (by
    match a with
    | ⟨0, _⟩ => rfl
    | ⟨1, _⟩ => rfl)
  have er : ridx_main_v77 i k = headCol i k := funext fun a => Fin.ext (by
    match a with
    | ⟨0, _⟩ => rfl
    | ⟨1, _⟩ => rfl)
  rw [el, er]

/-! ## The chain through the three regions -/

variable (m : (ℓ : Loc nD τ sig) → Buf (Elt Ideal) ℓ) (ρ : Dev nD → PrngReg)

/-- After the first region its output array holds the reference's first product. -/
theorem after_layer0 (c : Dev nD) :
    W4 m ρ c (Proc.devRef .tc main_v30)
      = val_main_v30 (F := Ideal) (m ((c : Thread nD τ).loc main_arg0)) (m ((c : Thread nD τ).loc main_arg3)) := by
  rw [refLayer0]
  refine (W4_arr m ρ c 2).trans ((layer0_array (V3 m ρ) c).trans ?_)
  show nodesTimes (W3 m ρ c (Proc.devRef .tc main_arg0)) (W3 m ρ c (Proc.devRef .tc main_arg3)) = _
  rw [entry0_arg0 m ρ c, entry0_arg3 m ρ c]

/-- After the second region its output array holds the reference's second product. -/
theorem after_layer1 (c : Dev nD) :
    W7 m ρ c (Proc.devRef .tc main_v48)
      = val_main_v48 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) := by
  rw [refLayer1]
  refine (W7_arr m ρ c 2).trans ((layer1_array (V6 m ρ) c).trans ?_)
  show nodesTimes (W6 m ρ c (Proc.devRef .tc main_v47)) (W6 m ρ c (Proc.devRef .tc main_arg5)) = _
  rw [entry1_hidden m ρ c (after_layer0 m ρ c), entry1_arg5 m ρ c]

/-- After the head region the result buffer holds the reference's result function of the launch arguments. -/
theorem result_eq (c : Dev nD) :
    W9 m ρ c (Proc.devRef .tc main_v77)
      = val_main_v80 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [refHead]
  refine (W9_arr m ρ c 3).trans ((head_array (V8 m ρ) c).trans ?_)
  show pooledTimes (W8 m ρ c (Proc.devRef .tc main_v76)) (W8 m ρ c (Proc.devRef .tc main_arg7)) (W8 m ρ c (Proc.devRef .tc main_arg8)) = _
  rw [entry2_pooled m ρ c (after_layer1 m ρ c), entry2_arg7 m ρ c, entry2_arg8 m ρ c]

end Cert.KernelIdeal.KernelValue

end
-- ==== Proof.lean ====
/-
  A two-layer graph convolution with mean pooling and a linear head, against its jnp reference: equal results over
  the extended reals.

  Both programs build, from the edge list, the source and destination lists with a self loop per node and the
  symmetric normalisation; both compute, per layer, a dense product of the node features with a weight matrix, gather
  its rows at the sources, scale, scatter-add at the destinations and add a bias (a rectifier between the layers);
  both mean-pool the node rows per graph and apply a linear head with bias. They differ only in where the three dense
  products run: the reference multiplies on the host, the kernel program launches three kernel regions — two that walk
  the 50000 node rows in five blocks of 10000 and multiply each block by the 128 × 128 weights, and one that
  multiplies the 256 pooled rows by the 128 × 16 classifier weights and adds the bias row. The kernels narrow their
  operands to bf16 first; on exact values that changes nothing, and a product into a zero accumulator is the plain
  sum Σₖ x(r, k) · w(k, q) that the host product also is. Sums of extended reals may be regrouped freely, so no
  finiteness of the inputs is used: every other operation is applied by both programs to equal operands.

  The frames of the two kernel programs are the generated frame certificates; the reference's frame is its run with
  the result dropped. The idealization rewrote nothing, so there is nothing to preserve. For the equality both runs
  are posted at ONE function of the kernel program's launch arguments, the reference's result function: the kernel
  program's run ends there by the chain through its three regions (KernelValue), the reference's by its own run and
  the agreement of the two memories on the arguments.
-/
import proofs.«413309_j6571299963161_3_alg».proof.Defs
import proofs.«413309_j6571299963161_3_alg».proof.Proof.Gen.Kernel
import proofs.«413309_j6571299963161_3_alg».proof.Proof.Gen.Kernel.Frame
import proofs.«413309_j6571299963161_3_alg».proof.Proof.Gen.KernelIdeal
import proofs.«413309_j6571299963161_3_alg».proof.Proof.Gen.KernelIdeal.Frame
import proofs.«413309_j6571299963161_3_alg».proof.Proof.Gen.ReferenceIdeal
import proofs.«413309_j6571299963161_3_alg».proof.Proof.Gen.Pre_finite_inputs
import proofs.«413309_j6571299963161_3_alg».proof.Proof.KernelRun
import proofs.«413309_j6571299963161_3_alg».proof.Proof.KernelValue
import proofs.«413309_j6571299963161_3_alg».proof.Proof.RefRead
import Idealize.ShloMosaic.Adequacy
import Idealize.ShloMosaic.Init

noncomputable section

namespace Cert.Proof

open Idealize.ShloMosaic Idealize.SL.Sem

/-- The word-level kernel program runs and leaves its arguments: its generated frame certificate. -/
theorem frame_kernel : Cert.frame_Kernel := fun m ρ _ => Cert.Kernel.Gen.frame m ρ

/-- The idealized kernel program runs and leaves its arguments: its generated frame certificate. -/
theorem frame_kernelIdeal : Cert.frame_KernelIdeal := fun m ρ _ => Cert.KernelIdeal.Gen.frame m ρ

/-- The reference is host operations only: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the reference's result function of the kernel
    program's arguments. -/
theorem algebraic : Cert.algebraic_KernelIdeal_ReferenceIdeal := by
  intro m ρ m' ρ' _ hagree
  refine ⟨fun c => Cert.ReferenceIdeal.Read.val_main_v80 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v80_eq]
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
